-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S32x4096 : Shape := ⟨2, ![32, 4096]⟩
abbrev S4096x512 : Shape := ⟨2, ![4096, 512]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_

variable [Facts]

def fn {F : FTy → Type} [FloatOps F] (main_arg0 : FVec F S4096x4096 .f32) (main_arg1 : FVec F S32x4096 .f32) (main_arg2 : IVec S4096x512 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S32x4096 .f32 := Host.absf main_arg1
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  main_v8
-- ==== Kernel.lean ====
abbrev S4096x4096 : Shape := ⟨2, ![4096, 4096]⟩
abbrev S32x4096 : Shape := ⟨2, ![32, 4096]⟩
abbrev S4096x512 : Shape := ⟨2, ![4096, 512]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S32x128x512x8 : Shape := ⟨4, ![32, 128, 512, 8]⟩
abbrev S32x512x8 : Shape := ⟨3, ![32, 512, 8]⟩
abbrev S32x1x512x8 : Shape := ⟨4, ![32, 1, 512, 8]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 27
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S32x4096, .f32⟩
  | .hbm, ⟨2, _⟩ => ⟨S4096x512, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S4096x512x1, .i32⟩
  | .hbm, ⟨8, _⟩ => ⟨S1x1x8, .i32⟩
  | .hbm, ⟨9, _⟩ => ⟨S4096x512x8, .i32⟩
  | .hbm, ⟨10, _⟩ => ⟨S4096x512x8, .i32⟩
  | .hbm, ⟨11, _⟩ => ⟨S4096x512x8, .i32⟩
  | .hbm, ⟨12, _⟩ => ⟨S_, .i32⟩
  | .hbm, ⟨13, _⟩ => ⟨S4096x512x8, .i32⟩
  | .hbm, ⟨14, _⟩ => ⟨S4096x512x8, .i32⟩
  | .hbm, ⟨15, _⟩ => ⟨S32x128x512x8, .i32⟩
  | .hbm, ⟨16, _⟩ => ⟨S32x512x8, .f32⟩
  | .hbm, ⟨17, _⟩ => ⟨S32x1x512x8, .f32⟩
  | .hbm, ⟨18, _⟩ => ⟨S32x128x512x8, .f32⟩
  | .hbm, ⟨19, _⟩ => ⟨S_, .f32⟩
  | .hbm, ⟨20, _⟩ => ⟨S32x128x512x8, .f32⟩
  | .hbm, ⟨21, _⟩ => ⟨S32x128x512x8, .f32⟩
  | .hbm, ⟨22, _⟩ => ⟨S32x128x512x8, .f32⟩
  | .hbm, ⟨23, _⟩ => ⟨S32x128x512x8, .f32⟩
  | .hbm, ⟨24, _⟩ => ⟨S32x128x512x8, .bf16⟩
  | .hbm, ⟨25, _⟩ => ⟨S4096x4096, .bf16⟩
  | .hbm, ⟨26, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S32x128x512x8 : S4096x512x8.ShapeCasts S32x128x512x8
  shapeCasts_S32x4096_S32x512x8 : S32x4096.ShapeCasts S32x512x8
  bcast_S32x512x8_S32x1x512x8_0_2_3 : S32x512x8.BroadcastsInDim S32x1x512x8 (![0, 2, 3] : Fin 3 → Fin S32x1x512x8.rank)
  bcast_S_S32x128x512x8 : S_.BroadcastsInDim S32x128x512x8 (![] : Fin 0 → Fin S32x128x512x8.rank)
  bcast_S32x1x512x8_S32x128x512x8_0_1_2_3 : S32x1x512x8.BroadcastsInDim S32x128x512x8 (![0, 1, 2, 3] : Fin 4 → Fin S32x128x512x8.rank)
  bitsLt_bf16_f32 : FTy.bits .bf16 < FTy.bits .f32
  shapeCasts_S32x128x512x8_S4096x4096 : S32x128x512x8.ShapeCasts S4096x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x4096.size a
  hwx0_1 : ∀ i : grid0.Coords, EltTy.bits .bf16 = 32 ∨ (Rect.block (s := S4096x4096) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S4096x4096.size a
  hwx0_2 : ∀ i : grid0.Coords, EltTy.bits .f32 = 32 ∨ (Rect.block (s := S4096x4096) S1024x2048.size (cc0_transform_2 i) (hinb0_2 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S32x4096 : Shape := ⟨2, ![32, 4096]⟩
abbrev S4096x512 : Shape := ⟨2, ![4096, 512]⟩
abbrev S8 : Shape := ⟨1, ![8]⟩
abbrev S_ : Shape := ⟨0, ![]⟩
abbrev S4096x512x1 : Shape := ⟨3, ![4096, 512, 1]⟩
abbrev S1x1x8 : Shape := ⟨3, ![1, 1, 8]⟩
abbrev S4096x512x8 : Shape := ⟨3, ![4096, 512, 8]⟩
abbrev S32x128x4096 : Shape := ⟨3, ![32, 128, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S32x4096, .f32⟩
  | .hbm, ⟨2, _⟩ => ⟨S4096x512, .i32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S4096x512x1, .i32⟩
  | .hbm, ⟨8, _⟩ => ⟨S1x1x8, .i32⟩
  | .hbm, ⟨9, _⟩ => ⟨S4096x512x8, .i32⟩
  | .hbm, ⟨10, _⟩ => ⟨S4096x512x8, .i32⟩
  | .hbm, ⟨11, _⟩ => ⟨S4096x512x8, .i32⟩
  | .hbm, ⟨12, _⟩ => ⟨S_, .i32⟩
  | .hbm, ⟨13, _⟩ => ⟨S4096x512x8, .i32⟩
  | .hbm, ⟨14, _⟩ => ⟨S4096x512x8, .i32⟩
  | .hbm, ⟨15, _⟩ => ⟨S4096x4096, .i32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S32x128x4096, .f32⟩
  | .hbm, ⟨21, _⟩ => ⟨S4096x4096, .f32⟩
  | .hbm, ⟨22, _⟩ => ⟨S4096x4096, .f32⟩
  | .hbm, ⟨23, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S4096x512_S4096x512x1_0_1 : S4096x512.BroadcastsInDim S4096x512x1 (![0, 1] : Fin 2 → Fin S4096x512x1.rank)
  bcast_S8_S1x1x8_2 : S8.BroadcastsInDim S1x1x8 (![2] : Fin 1 → Fin S1x1x8.rank)
  bcast_S4096x512x1_S4096x512x8_0_1_2 : S4096x512x1.BroadcastsInDim S4096x512x8 (![0, 1, 2] : Fin 3 → Fin S4096x512x8.rank)
  bcast_S1x1x8_S4096x512x8_0_1_2 : S1x1x8.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  bcast_S_S4096x4096 : S_.BroadcastsInDim S4096x4096 (![] : Fin 0 → Fin S4096x4096.rank)
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What each control case of the matmul body leaves behind, as ONE pure term of the blocks it loaded.
  The body zeroes the accumulator at the first K step, adds the product of its two blocks to the
  accumulator at every step, and copies the accumulator into the output block at the last K step.
  Read back, the accumulator after a step is the body's payload `acc + x · w` of the loaded blocks:
  over the zero block at the first step, over what the step before left at every other step; and the
  output block after the last step holds that same payload.
-/
import proofs.«420315_j3298534884152_3_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The zero offsets of a whole-block access. -/
theorem zero_off : (![0, 0] : Fin 2 → Nat) = fun _ => 0 := by
  funext a; match a with | ⟨0, _⟩ => rfl | ⟨1, _⟩ => rfl

/-- First K step: the accumulator ends at the product added to the zero block. -/
theorem acc_first (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1024x2048 .f32) (harg6 : arg6.IsWhole) (hc0 : cond0_0 i) (hc1 : ¬cond0_1 i)
    (x0 : Vec F S1024x512 .f32) (x1 : Vec F S512x2048 .bf16) :
    sout0_A_0 c i arg3 harg3 arg4 harg4 arg5 harg5 arg6 harg6 hc0 hc1 x0 x1 = k0_pay2 x0 (k0_pay1 (F := F)) x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x2048) zero_off]
  simp only [View.readAt_eq_ld, harg3.read_unread, harg4.read_unread, View.ld_unit_zero (S := S1024x512) zero_off,
    View.ld_unit_zero (S := S512x2048) zero_off, View.readCov_unit_zero (S := S1024x2048) _ zero_off]

/-- A middle K step: the accumulator ends at the product added to what the step before left. -/
theorem acc_middle (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : ¬cond0_1 i)
    (x0 : Vec F S1024x512 .f32) (x1 : Vec F S512x2048 .bf16) (xs0 : Vec F S1024x2048 .f32) :
    sout0_B_0 c i arg3 harg3 arg4 harg4 arg5 harg5 arg6 harg6 hc0 hc1 x0 x1 xs0 = k0_pay2 x0 xs0 x1 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x2048) zero_off]
  simp only [View.readAt_eq_ld, harg3.read_unread, harg4.read_unread, harg6.read_unread, View.ld_unit_zero (S := S1024x512) zero_off,
    View.ld_unit_zero (S := S512x2048) zero_off, View.ld_unit_zero (S := S1024x2048) zero_off]

/-- The last K step: the accumulator ends as at a middle step … -/
theorem acc_last (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .bf16) (xs0 : Vec F S1024x2048 .f32) :
    sout0_C_0 c i arg3 harg3 arg4 harg4 arg5 harg5 arg6 harg6 hc0 hc1 x0 x1 xs0 = k0_pay2 x0 xs0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x2048) zero_off]
  simp only [View.readAt_eq_ld, harg3.read_unread, harg4.read_unread, harg6.read_unread, View.ld_unit_zero (S := S1024x512) zero_off,
    View.ld_unit_zero (S := S512x2048) zero_off, View.ld_unit_zero (S := S1024x2048) zero_off]

/-- … and the output block receives the accumulator's new contents. -/
theorem out_last (c : Dev nD) (i : grid0.Coords) (arg3 : Memref sig .tc .vmem S1024x512 .f32) (harg3 : arg3.IsWhole) (arg4 : Memref sig .tc .vmem S512x2048 .bf16) (harg4 : arg4.IsWhole) (arg5 : Memref sig .tc .vmem S1024x2048 .f32) (harg5 : arg5.IsWhole) (arg6 : Memref sig .tc .vmem S1024x2048 .f32) (harg6 : arg6.IsWhole) (hc0 : ¬cond0_0 i) (hc1 : cond0_1 i)
    (x0 : Vec F S1024x512 .f32) (x1 : Vec F S512x2048 .bf16) (xs0 : Vec F S1024x2048 .f32) :
    out0_C_2 c i arg3 harg3 arg4 harg4 arg5 harg5 arg6 harg6 hc0 hc1 x0 x1 xs0 = k0_pay2 x0 xs0 x1 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x2048) zero_off]
  simp only [View.readAt_eq_ld, harg3.read_unread, harg4.read_unread, harg6.read_unread, View.ld_unit_zero (S := S1024x512) zero_off,
    View.ld_unit_zero (S := S512x2048) zero_off, View.ld_unit_zero (S := S1024x2048) zero_off,
    View.readCov_unit_zero (S := S1024x2048) _ zero_off]

end Cert.KernelIdeal.Pieces

end
-- ==== Proof.Payload.lean ====
/-
  The body's arithmetic at one element, on the extended reals.  The zero block reads 0 everywhere; the
  accumulate step reads, at row `p` and column `q` of the 1024 × 2048 block, the old accumulator plus the
  sum over the 512 contraction positions `k` of `x[p,k] · w[k,q]` — the narrowing of `x` to bf16 is the
  identity on extended reals, and the matrix unit into a zero splat is the plain sum of products.
-/
import proofs.«420315_j3298534884152_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The zero block is 0 at every element. -/
theorem zero_block_apply (y : S1024x2048.Idx) : k0_pay1 (F := Ideal) y = 0 := by
  unfold k0_pay1
  rw [shapeCast_self]
  show Ideal.ofBits .f32 0x00000000#32 = 0
  exact Ideal.ofBits_zero_f32

theorem lhs_row (i : S1024x2048.Idx) (q : dot_S1024x512_S512x2048_S1024x2048_1_0_0_1_n_n.contr.Idx) :
    (dot_S1024x512_S512x2048_S1024x2048_1_0_0_1_n_n.lhsIdx i q 0).val = (i 0).val := by
  unfold DotDims.lhsIdx
  rw [dif_neg (show ¬(0 : Fin S1024x512.rank) ∈ dot_S1024x512_S512x2048_S1024x2048_1_0_0_1_n_n.lhsBatch by decide), dif_pos (show (0 : Fin S1024x512.rank) ∈ dot_S1024x512_S512x2048_S1024x2048_1_0_0_1_n_n.lhsNonContracting by decide)]
  rfl
theorem lhs_col (i : S1024x2048.Idx) (q : dot_S1024x512_S512x2048_S1024x2048_1_0_0_1_n_n.contr.Idx) :
    (dot_S1024x512_S512x2048_S1024x2048_1_0_0_1_n_n.lhsIdx i q 1).val = (q ⟨0, by decide⟩).val :=
  dot_S1024x512_S512x2048_S1024x2048_1_0_0_1_n_n.lhsIdx_val_of_single rfl i q
theorem rhs_row (i : S1024x2048.Idx) (q : dot_S1024x512_S512x2048_S1024x2048_1_0_0_1_n_n.contr.Idx) :
    (dot_S1024x512_S512x2048_S1024x2048_1_0_0_1_n_n.rhsIdx i q 0).val = (q ⟨0, by decide⟩).val :=
  dot_S1024x512_S512x2048_S1024x2048_1_0_0_1_n_n.rhsIdx_val_of_single rfl i q
theorem rhs_col (i : S1024x2048.Idx) (q : dot_S1024x512_S512x2048_S1024x2048_1_0_0_1_n_n.contr.Idx) :
    (dot_S1024x512_S512x2048_S1024x2048_1_0_0_1_n_n.rhsIdx i q 1).val = (i 1).val := by
  unfold DotDims.rhsIdx
  rw [dif_neg (show ¬(1 : Fin S512x2048.rank) ∈ dot_S1024x512_S512x2048_S1024x2048_1_0_0_1_n_n.rhsBatch by decide), dif_pos (show (1 : Fin S512x2048.rank) ∈ dot_S1024x512_S512x2048_S1024x2048_1_0_0_1_n_n.rhsNonContracting by decide)]
  rfl

/-- The block product at an element: the sum over the contraction position. -/
theorem block_product_apply (x : FVec Ideal S1024x512 .bf16) (w : FVec Ideal S512x2048 .bf16) (p : Fin 1024) (q : Fin 2048) :
    matmul dot_S1024x512_S512x2048_S1024x2048_1_0_0_1_n_n none x w (constant S1024x2048 .f32 0x00000000#32) (ix2 p q)
      = ∑ k : Fin 512, x (ix2 p k) * w (ix2 k q) := by
  show FloatOps.matmul dot_S1024x512_S512x2048_S1024x2048_1_0_0_1_n_n none x w (constant S1024x2048 .f32 0x00000000#32) (ix2 p q) = _
  rw [Ideal.matmul_constant_zero_apply, ← Equiv.sum_comp (contrEquiv1 dot_S1024x512_S512x2048_S1024x2048_1_0_0_1_n_n 512 rfl rfl).symm]
  refine Finset.sum_congr rfl fun k _ => ?_
  have hk := contrEquiv1_symm_val dot_S1024x512_S512x2048_S1024x2048_1_0_0_1_n_n 512 rfl rfl k
  have el : dot_S1024x512_S512x2048_S1024x2048_1_0_0_1_n_n.lhsIdx (ix2 p q) ((contrEquiv1 dot_S1024x512_S512x2048_S1024x2048_1_0_0_1_n_n 512 rfl rfl).symm k) = ix2 p k := funext fun a => Fin.ext (by
    match a with
    | ⟨0, _⟩ => exact lhs_row _ _
    | ⟨1, _⟩ => exact (lhs_col _ _).trans hk)
  have er : dot_S1024x512_S512x2048_S1024x2048_1_0_0_1_n_n.rhsIdx (ix2 p q) ((contrEquiv1 dot_S1024x512_S512x2048_S1024x2048_1_0_0_1_n_n 512 rfl rfl).symm k) = ix2 k q := funext fun a => Fin.ext (by
    match a with
    | ⟨0, _⟩ => exact (rhs_row _ _).trans hk
    | ⟨1, _⟩ => exact rhs_col _ _)
  rw [el, er]

/-- The accumulate step at an element. -/
theorem accumulate_apply (x : Vec Ideal S1024x512 .f32) (acc : Vec Ideal S1024x2048 .f32) (w : Vec Ideal S512x2048 .bf16)
    (p : Fin 1024) (q : Fin 2048) :
    k0_pay2 (F := Ideal) x acc w (ix2 p q) = acc (ix2 p q) + ∑ k : Fin 512, x (ix2 p k) * w (ix2 k q) := by
  unfold k0_pay2
  simp only [shapeCast_self]
  show acc (ix2 p q) + matmul (F := Ideal) dot_S1024x512_S512x2048_S1024x2048_1_0_0_1_n_n none (truncf .bf16 x bitsLt_bf16_f32) w (constant S1024x2048 .f32 0x00000000#32) (ix2 p q) = _
  rw [block_product_apply]
  rfl

end Cert.KernelIdeal.Payload

end
-- ==== Proof.Spec.lean ====
/-
  The two sides' common value, free of any program: the product of two 4096 × 4096 matrices of extended
  reals, `(A · W)[r, c] = ∑ₖ A[r, k] · W[k, c]`, and the way a tiled evaluation reaches it.  A grid point `n`
  of the (4, 2, 8) grid (row tile `n / 16`, column tile `n / 8 % 2`, K step `n % 8`) contributes to the
  element `(p, q)` of its 1024 × 2048 output tile the partial sum over its 512 contraction positions; the
  eight K steps of a tile partition the 4096 positions, so their partial sums add up to the full sum.
  Only commutativity and associativity of addition are used, which hold on the extended reals.
-/
import Idealize.ShloMosaic.Lib.ValueIdx
import Mathlib.Algebra.BigOperators.Fin
import Mathlib.Algebra.BigOperators.Intervals

noncomputable section

open scoped BigOperators

namespace Cert.Spec

open Idealize.ShloMosaic Idealize.ShloMosaic.ValueIdx

/-- The square matrices' shape and the output tile's. -/
abbrev Sq : Shape := ⟨2, ![4096, 4096]⟩
abbrev Tile : Shape := ⟨2, ![1024, 2048]⟩

/-- A matrix entry by natural-number row and column (0 outside the matrix, which is never read). -/
def at2 (X : Sq.Idx → EReal) (r c : ℕ) : EReal :=
  if h : r < 4096 ∧ c < 4096 then X (ix2 ⟨r, h.1⟩ ⟨c, h.2⟩) else 0

theorem at2_of_lt (X : Sq.Idx → EReal) (r c : ℕ) (hr : r < 4096) (hc : c < 4096) :
    at2 X r c = X (ix2 ⟨r, hr⟩ ⟨c, hc⟩) := dif_pos ⟨hr, hc⟩

theorem at2_idx (X : Sq.Idx → EReal) (i : Sq.Idx) : at2 X (i 0).val (i 1).val = X i := by
  rw [at2_of_lt X _ _ (i 0).isLt (i 1).isLt]
  exact congrArg X (eq_ix2 i).symm

/-- The matrix product. -/
def product (A W : Sq.Idx → EReal) : Sq.Idx → EReal := fun i =>
  ∑ k : Fin 4096, at2 A (i 0).val k.val * at2 W k.val (i 1).val

/-- What grid point `n` adds to element `y` of its output tile. -/
def addend (A W : Sq.Idx → EReal) (n : ℕ) (y : Tile.Idx) : EReal :=
  ∑ k : Fin 512, at2 A (n / 16 * 1024 + (y 0).val) (n % 8 * 512 + k.val)
    * at2 W (n % 8 * 512 + k.val) (n / 8 % 2 * 2048 + (y 1).val)

/-- A sum over 4096 positions, cut into eight runs of 512. -/
theorem sum_eight_runs {M : Type*} [AddCommMonoid M] (f : ℕ → M) :
    ∑ k : Fin 4096, f k.val = ∑ s ∈ Finset.range 8, ∑ j : Fin 512, f (s * 512 + j.val) := by
  rw [← Fin.sum_univ_eq_sum_range (fun s => ∑ j : Fin 512, f (s * 512 + j.val)) 8]
  have e := Equiv.sum_comp (finProdFinEquiv (m := 8) (n := 512)) (fun k : Fin (8 * 512) => f k.val)
  rw [Fintype.sum_prod_type] at e
  refine Eq.trans ?_ (e.symm.trans ?_)
  · rfl
  · refine Finset.sum_congr rfl fun a _ => Finset.sum_congr rfl fun b _ => ?_
    show f (b.val + 512 * a.val) = f (a.val * 512 + b.val)
    congr 1; omega

/-- The eight K steps of output tile `a` (points `8a … 8a + 7`) add up to the product's entry. -/
theorem sum_addend (A W : Sq.Idx → EReal) (a : ℕ) (y : Tile.Idx) :
    ∑ s ∈ Finset.range 8, addend A W (8 * a + s) y
      = ∑ k : Fin 4096, at2 A (a / 2 * 1024 + (y 0).val) k.val * at2 W k.val (a % 2 * 2048 + (y 1).val) := by
  rw [sum_eight_runs (fun k => at2 A (a / 2 * 1024 + (y 0).val) k * at2 W k (a % 2 * 2048 + (y 1).val))]
  refine Finset.sum_congr rfl fun s hs => ?_
  have hs8 : s < 8 := Finset.mem_range.mp hs
  unfold addend
  rw [show (8 * a + s) / 16 = a / 2 by omega, show (8 * a + s) % 8 = s by omega, show (8 * a + s) / 8 % 2 = a % 2 by omega]

end Cert.Spec

end
-- ==== Proof.Tiles.lean ====
/-
  From the tiles to the whole array, at the ideal values.  Grid point `t` of the (4, 2, 8) grid works on
  rows `1024·(t/16) …` of `A`, columns `2048·(t/8 % 2) …` of `W` and the contraction positions
  `512·(t % 8) …`.  The accumulator after point `t` is 0 plus the partial sums of the points of its
  tile's run up to `t`; at the run's last point (`t % 8 = 7`) the eight partial sums are the whole
  contraction, the output block written back there is the tile of the matrix product, and these tiles
  cover the result array.
-/
import proofs.«420315_j3298534884152_3_alg».proof.Proof.Gen.KernelIdeal.Value
import proofs.«420315_j3298534884152_3_alg».proof.Proof.Pieces
import proofs.«420315_j3298534884152_3_alg».proof.Proof.Payload
import proofs.«420315_j3298534884152_3_alg».proof.Proof.Spec

set_option maxRecDepth 16384

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The two matrices as the region finds them, and the blocks of a grid point, at their literal types. -/
abbrev amat (c : Dev nD) : Spec.Sq.Idx → EReal := V m c main_arg0
abbrev wmat (c : Dev nD) : Spec.Sq.Idx → EReal := V m c main_v19
abbrev xblk (c : Dev nD) (t : Fin cfg0.N) : Vec Ideal S1024x512 .f32 := iblk m c 0 t
abbrev wblk (c : Dev nD) (t : Fin cfg0.N) : Vec Ideal S512x2048 .bf16 := iblk m c 1 t

/-- The block indices of the three windows at point `t`: row tile `t / 16`, column tile `t / 8 % 2`, K step `t % 8`. -/
theorem index_facts : ∀ t : Fin cfg0.N, win0_0.index t (0 : Fin 2) = t.val / 16 ∧ win0_0.index t (1 : Fin 2) = t.val % 8
    ∧ win0_1.index t (0 : Fin 2) = t.val % 8 ∧ win0_1.index t (1 : Fin 2) = t.val / 8 % 2
    ∧ win0_2.index t (0 : Fin 2) = t.val / 16 ∧ win0_2.index t (1 : Fin 2) = t.val / 8 % 2 :=
  (by decide +kernel : ∀ t : Fin grid0.N, _)

/-- `A`'s block at point `t`, element `(p, k)`. -/
theorem xblk_apply (c : Dev nD) (t : Fin cfg0.N) (p : Fin 1024) (k : Fin 512) :
    xblk m c t (ix2 p k) = Spec.at2 (amat m c) (t.val / 16 * 1024 + p.val) (t.val % 8 * 512 + k.val) := by
  obtain ⟨e0, e1, -⟩ := index_facts t
  have ht : t.val < 64 := lt_of_lt_of_eq t.isLt N_0
  rw [Spec.at2_of_lt _ _ _ (by omega) (by omega)]
  show V m c main_arg0 (((cfg0.win 0).blk t).view.emb (ix2 p k)) = V m c main_arg0 _
  congr 1; funext a; apply Fin.ext
  match a with
  | ⟨0, _⟩ => show win0_0.index t (0 : Fin 2) * 1024 + 1 * p.val = t.val / 16 * 1024 + p.val; omega
  | ⟨1, _⟩ => show win0_0.index t (1 : Fin 2) * 512 + 1 * k.val = t.val % 8 * 512 + k.val; omega

/-- `W`'s block at point `t`, element `(k, q)`. -/
theorem wblk_apply (c : Dev nD) (t : Fin cfg0.N) (k : Fin 512) (q : Fin 2048) :
    wblk m c t (ix2 k q) = Spec.at2 (wmat m c) (t.val % 8 * 512 + k.val) (t.val / 8 % 2 * 2048 + q.val) := by
  obtain ⟨-, -, e0, e1, -⟩ := index_facts t
  have ht : t.val < 64 := lt_of_lt_of_eq t.isLt N_0
  rw [Spec.at2_of_lt _ _ _ (by omega) (by omega)]
  show V m c main_v19 (((cfg0.win 1).blk t).view.emb (ix2 k q)) = V m c main_v19 _
  congr 1; funext a; apply Fin.ext
  match a with
  | ⟨0, _⟩ => show win0_1.index t (0 : Fin 2) * 512 + 1 * k.val = t.val % 8 * 512 + k.val; omega
  | ⟨1, _⟩ => show win0_1.index t (1 : Fin 2) * 2048 + 1 * q.val = t.val / 8 % 2 * 2048 + q.val; omega

/-- The blocks' product, element by element, is the point's addend. -/
theorem partial_sum (c : Dev nD) (t : Fin cfg0.N) (p : Fin 1024) (q : Fin 2048) :
    ∑ k : Fin 512, xblk m c t (ix2 p k) * wblk m c t (ix2 k q) = Spec.addend (amat m c) (wmat m c) t.val (ix2 p q) := by
  unfold Spec.addend
  refine Finset.sum_congr rfl fun k _ => ?_
  rw [xblk_apply, wblk_apply]

/-! ## The accumulator along a tile's run -/

/-- A run's first point leaves the point's addend over zero. -/
theorem reset_apply (c : Dev nD) (n : ℕ) (hb : n < cfg0.N) (acc : Vec Ideal S1024x2048 .f32) (h0 : n % 8 = 0)
    (y : S1024x2048.Idx) :
    Value.scAt0_0 m c n hb acc y = 0 + Spec.addend (amat m c) (wmat m c) n y := by
  obtain ⟨p, q, rfl⟩ : ∃ (p : Fin 1024) (q : Fin 2048), y = ix2 p q := ⟨y 0, y 1, eq_ix2 y⟩
  have h1 : ¬n % 8 = 7 := by omega
  unfold Value.scAt0_0
  rw [dif_pos h0, dif_neg h1]
  refine (congrFun (Pieces.acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N))) (ix2 p q)).trans ?_
  refine (Payload.accumulate_apply (xblk m c ⟨n, hb⟩) (k0_pay1 (F := Ideal)) (wblk m c ⟨n, hb⟩) p q).trans ?_
  rw [Payload.zero_block_apply]
  exact congrArg (0 + ·) (partial_sum m c ⟨n, hb⟩ p q)

/-- Every later point of the run adds its addend to what the point before left. -/
theorem step_apply (c : Dev nD) (n : ℕ) (hb : n < cfg0.N) (acc : Vec Ideal S1024x2048 .f32) (h0 : ¬n % 8 = 0)
    (y : S1024x2048.Idx) :
    Value.scAt0_0 m c n hb acc y = acc y + Spec.addend (amat m c) (wmat m c) n y := by
  obtain ⟨p, q, rfl⟩ : ∃ (p : Fin 1024) (q : Fin 2048), y = ix2 p q := ⟨y 0, y 1, eq_ix2 y⟩
  unfold Value.scAt0_0
  rw [dif_neg h0]
  by_cases h1 : n % 8 = 7
  · rw [dif_pos h1]
    refine (congrFun (Pieces.acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) acc) (ix2 p q)).trans ?_
    exact (Payload.accumulate_apply (xblk m c ⟨n, hb⟩) acc (wblk m c ⟨n, hb⟩) p q).trans
      (congrArg (acc (ix2 p q) + ·) (partial_sum m c ⟨n, hb⟩ p q))
  · rw [dif_neg h1]
    refine (congrFun (Pieces.acc_middle c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) acc) (ix2 p q)).trans ?_
    exact (Payload.accumulate_apply (xblk m c ⟨n, hb⟩) acc (wblk m c ⟨n, hb⟩) p q).trans
      (congrArg (acc (ix2 p q) + ·) (partial_sum m c ⟨n, hb⟩ p q))

/-- The accumulator after point `t`: the addends of its run's points up to `t`, over zero. -/
theorem acc_after (c : Dev nD) (t : Fin cfg0.N) (y : S1024x2048.Idx) :
    (outsAt0 m c t.val t.isLt).2 y
      = 0 + ∑ s ∈ Finset.range (t.val % 8 + 1), Spec.addend (amat m c) (wmat m c) (8 * (t.val / 8) + s) y := by
  rw [Value.soutsAt0_0_eq]
  exact Pipeline.accAt_add_apply (fun n h => Value.scAt0_0 m c n h (VS0_0.read (Elt Ideal) VS0_0.junk)) (Value.scAt0_0 m c)
    (fun _ => (0 : EReal)) (fun n => Spec.addend (amat m c) (wmat m c) n) (8 * (t.val / 8)) 7
    (fun h i => reset_apply m c _ h _ (by omega) i)
    (fun n h acc i hlt hle => step_apply m c n h acc (by omega) i)
    (t.val % 8) (by omega) _ y

/-! ## The block written back, and the result array -/

/-- At a run's last point the output block receives the accumulator's final contents. -/
theorem out_eq_acc (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  exact (Pieces.out_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) _).trans
    (Pieces.acc_last c (grid0.coords t) (ms0_0 t) (hs0_0 t) (ms0_1 t) (hs0_1 t) (ms0_2 t) (hs0_2 t) scM0_0 (Memref.isWhole_whole _) (fun h => h0 ((hcond0_0 t).mp h)) ((hcond0_1 t).mpr h7) (iblk m c 0 t) (iblk m c 1 t) _).symm

/-- What a flushing point writes back is its tile of the matrix product. -/
theorem flushed_eq (c : Dev nD) (t : Fin cfg0.N) (hf : (cfg0.win 2).flush t = true) :
    (dats m 0 c).flushed 2 t = ((cfg0.win 2).blk t).view.read (Elt Ideal) (Spec.product (amat m c) (wmat m c)) := by
  have h7 : t.val % 8 = 7 := (flush0_2 t).mp hf
  have ht : t.val < 64 := lt_of_lt_of_eq t.isLt N_0
  obtain ⟨-, -, -, -, e0, e1⟩ := index_facts t
  rw [Value.flushed2, out_eq_acc m c t h7]
  funext y
  show (outsAt0 m c t.val t.isLt).2 y = Spec.product (amat m c) (wmat m c) (((cfg0.win 2).blk t).view.emb y)
  rw [acc_after, h7, zero_add, Spec.sum_addend]
  unfold Spec.product
  have r0 : ((((cfg0.win 2).blk t).view.emb y) 0).val = t.val / 8 / 2 * 1024 + (y 0).val := by
    show win0_2.index t (0 : Fin 2) * 1024 + 1 * (y 0).val = _; omega
  have r1 : ((((cfg0.win 2).blk t).view.emb y) 1).val = t.val / 8 % 2 * 2048 + (y 1).val := by
    show win0_2.index t (1 : Fin 2) * 2048 + 1 * (y 1).val = _; omega
  rw [r0, r1]

/-- Every element of the result lies in the tile some run's last point writes back. -/
theorem covered (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have hN : cfg0.N = 64 := N_0
  let t : Fin cfg0.N := ⟨(i 0).val / 1024 * 16 + (i 1).val / 2048 * 8 + 7, by rw [hN]; omega⟩
  have htv : t.val = (i 0).val / 1024 * 16 + (i 1).val / 2048 * 8 + 7 := rfl
  obtain ⟨-, -, -, -, e0, e1⟩ := index_facts t
  refine ⟨t, (flush0_2 t).mpr (by omega), ?_⟩
  show i ∈ ((View.whole main_v20).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 2048 ≤ (i 1).val ∧ (i 1).val < win0_2.index t (1 : Fin 2) * 2048 + 2048
    omega

/-- The result array after the run is the matrix product of the two arrays the region was entered with. -/
theorem final (c : Dev nD) : (dats m 0 c).arrAt 2 cfg0.N = Spec.product (amat m c) (wmat m c) :=
  (dats m 0 c).arrAt_eq_of_cover 2 (Spec.product (amat m c) (wmat m c)) (flushed_eq m c) covered

end Cert.KernelIdeal.Tiles

end
-- ==== Proof.Weights.lean ====
/-
  The dequantized weight matrix, on both sides.  Each 32-bit word of `q` holds eight 4-bit values; both
  programs unpack them the same way into a 4096 × 512 × 8 array of nibbles.  The kernel's wrapper then
  regroups the rows by 128 ([32, 128, 512, 8]), subtracts 8, multiplies by the group's scale
  `s[g, 8·j + i]` broadcast over the 128 rows, and flattens to 4096 × 4096; the reference flattens the
  nibbles first and repeats each scale row 128 times.  At row `r` and column `n` both read
  `(nibble[r, n / 8, n % 8] − 8) · s[r / 128, n]`; the narrowing to bf16 is the identity on extended reals.
-/
import proofs.«420315_j3298534884152_3_alg».proof.Proof.Gen.KernelIdeal.Frame.Runs
import proofs.«420315_j3298534884152_3_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.TcCoe Idealize.SL.Sem Idealize.ShloMosaic.StableHlo
open Idealize.ShloMosaic.ValueIdx

/-- The unpacked nibbles, as the wrapper computes them from `q`. -/
def nibbles (x2 : (⟨S4096x512, .i32⟩ : BufTy).Contents (Elt Ideal)) : (⟨S4096x512x8, .i32⟩ : BufTy).Contents (Elt Ideal) :=
  andi (Host.shrsi (broadcastInDim S4096x512x8 ![0, 1, 2] bcast_S4096x512x1_S4096x512x8_0_1_2 (broadcastInDim S4096x512x1 ![0, 1] bcast_S4096x512_S4096x512x1_0_1 x2))
      (broadcastInDim S4096x512x8 ![0, 1, 2] bcast_S1x1x8_S4096x512x8_0_1_2 (broadcastInDim S1x1x8 ![2] bcast_S8_S1x1x8_2 (muli (broadcastInDim S8 ![] bcast_S_S8 (constantI S_ 32 4#32)) (iotaInDim S8 32 0)))))
    (broadcastInDim S4096x512x8 ![] bcast_S_S4096x512x8 (constantI S_ 32 15#32))

/-- The reference unpacks them by the same operations. -/
theorem nibbles_eq (x2 : (⟨S4096x512, .i32⟩ : BufTy).Contents (Elt Ideal)) :
    nibbles x2 = Cert.ReferenceIdeal.Read.val_main_v9 (F := Ideal) x2 := rfl

/-- The wrapper's weight matrix as one term of `s` and `q`. -/
def weights (x1 : (⟨S32x4096, .f32⟩ : BufTy).Contents (Elt Ideal)) (x2 : (⟨S4096x512, .i32⟩ : BufTy).Contents (Elt Ideal)) :
    (⟨S4096x4096, .bf16⟩ : BufTy).Contents (Elt Ideal) :=
  shapeCast S4096x4096
    (truncf .bf16
      (mulf
        (subf (sitofp .f32 (shapeCast S32x128x512x8 (nibbles x2) shapeCasts_S4096x512x8_S32x128x512x8))
          (broadcastInDim S32x128x512x8 ![] bcast_S_S32x128x512x8 (constant (F := Ideal) S_ .f32 0x41000000#32)))
        (broadcastInDim S32x128x512x8 ![0, 1, 2, 3] bcast_S32x1x512x8_S32x128x512x8_0_1_2_3
          (broadcastInDim S32x1x512x8 ![0, 2, 3] bcast_S32x512x8_S32x1x512x8_0_2_3
            (shapeCast S32x512x8 x1 shapeCasts_S32x4096_S32x512x8))))
      bitsLt_bf16_f32)
    shapeCasts_S32x128x512x8_S4096x4096

variable (m : (ℓ : Loc nD τ sig) → Buf (Elt Ideal) ℓ)

/-- The second operand of the pallas_call, as the region finds it, is that term of the arguments. -/
theorem region_weights (c : Dev nD) :
    (V m c main_v19 : S4096x4096.Idx → Elt Ideal .bf16)
      = weights (m ((c : Thread nD τ).loc main_arg1)) (m ((c : Thread nD τ).loc main_arg2)) := by
  dsimp only [Gen.V, Gen.hostOps0]
  after_results
  rfl

/-- The wrapper's weight at row `r`, column `n`. -/
theorem weights_apply (x1 : (⟨S32x4096, .f32⟩ : BufTy).Contents (Elt Ideal)) (x2 : (⟨S4096x512, .i32⟩ : BufTy).Contents (Elt Ideal))
    (j : S4096x4096.Idx) :
    weights x1 x2 j
      = (FloatOps.sitofp (F := Ideal) .f32 (nibbles x2 (ix3 (j 0) ⟨(j 1).val / 8, by have := idx2_lt1 j; omega⟩ ⟨(j 1).val % 8, by omega⟩))
          - Ideal.ofBits .f32 0x41000000#32)
        * x1 (ix2 ⟨(j 0).val / 128, by have := idx2_lt0 j; omega⟩ (j 1)) := by
  have h0 : (j 0).val < 4096 := (j 0).isLt
  have h1 : (j 1).val < 4096 := (j 1).isLt
  unfold weights
  rw [shapeCast_apply _ shapeCasts_S32x128x512x8_S4096x4096 j
    (ix4 (⟨(j 0).val / 128, by omega⟩ : Fin 32) (⟨(j 0).val % 128, by omega⟩ : Fin 128) (⟨(j 1).val / 8, by omega⟩ : Fin 512) (⟨(j 1).val % 8, by omega⟩ : Fin 8))
    (by rewrite [Shape.rowMajor_val_four, Shape.rowMajor_val_two]
        show (((j 0).val / 128 * 128 + (j 0).val % 128) * 512 + (j 1).val / 8) * 8 + (j 1).val % 8 = (j 0).val * 4096 + (j 1).val
        omega)]
  show (FloatOps.sitofp (F := Ideal) .f32 (shapeCast S32x128x512x8 (nibbles x2) shapeCasts_S4096x512x8_S32x128x512x8 _) - Ideal.ofBits .f32 0x41000000#32) * _ = _
  rw [shapeCast_apply (nibbles x2) shapeCasts_S4096x512x8_S32x128x512x8 _
    (ix3 (j 0) (⟨(j 1).val / 8, by omega⟩ : Fin 512) (⟨(j 1).val % 8, by omega⟩ : Fin 8))
    (by rewrite [Shape.rowMajor_val_three, Shape.rowMajor_val_four]
        show ((j 0).val * 512 + (j 1).val / 8) * 8 + (j 1).val % 8 = (((j 0).val / 128 * 128 + (j 0).val % 128) * 512 + (j 1).val / 8) * 8 + (j 1).val % 8
        omega)]
  congr 1
  rw [broadcastInDim_apply _ bcast_S32x1x512x8_S32x128x512x8_0_1_2_3 _ _
    (ix4 (⟨(j 0).val / 128, by omega⟩ : Fin 32) (⟨0, by omega⟩ : Fin 1) (⟨(j 1).val / 8, by omega⟩ : Fin 512) (⟨(j 1).val % 8, by omega⟩ : Fin 8))
    (fun a => match a with
      | ⟨0, _⟩ => by show (j 0).val / 128 = if (32 : Nat) = 1 then 0 else (j 0).val / 128; rw [if_neg (by decide)]
      | ⟨1, _⟩ => by show 0 = if (1 : Nat) = 1 then 0 else (j 0).val % 128; rw [if_pos rfl]
      | ⟨2, _⟩ => by show (j 1).val / 8 = if (512 : Nat) = 1 then 0 else (j 1).val / 8; rw [if_neg (by decide)]
      | ⟨3, _⟩ => by show (j 1).val % 8 = if (8 : Nat) = 1 then 0 else (j 1).val % 8; rw [if_neg (by decide)])]
  rw [broadcastInDim_apply _ bcast_S32x512x8_S32x1x512x8_0_2_3 _ _
    (ix3 (⟨(j 0).val / 128, by omega⟩ : Fin 32) (⟨(j 1).val / 8, by omega⟩ : Fin 512) (⟨(j 1).val % 8, by omega⟩ : Fin 8))
    (fun a => match a with
      | ⟨0, _⟩ => by show (j 0).val / 128 = if (32 : Nat) = 1 then 0 else (j 0).val / 128; rw [if_neg (by decide)]
      | ⟨1, _⟩ => by show (j 1).val / 8 = if (512 : Nat) = 1 then 0 else (j 1).val / 8; rw [if_neg (by decide)]
      | ⟨2, _⟩ => by show (j 1).val % 8 = if (8 : Nat) = 1 then 0 else (j 1).val % 8; rw [if_neg (by decide)])]
  exact shapeCast_apply x1 shapeCasts_S32x4096_S32x512x8 _ (ix2 (⟨(j 0).val / 128, by omega⟩ : Fin 32) (j 1))
    (by rewrite [Shape.rowMajor_val_two, Shape.rowMajor_val_three]
        show (j 0).val / 128 * 4096 + (j 1).val = ((j 0).val / 128 * 512 + (j 1).val / 8) * 8 + (j 1).val % 8
        omega)

/-- The reference's weight at the same place is the same number. -/
theorem reference_apply (x1 : (⟨S32x4096, .f32⟩ : BufTy).Contents (Elt Ideal)) (x2 : (⟨S4096x512, .i32⟩ : BufTy).Contents (Elt Ideal))
    (j : S4096x4096.Idx) :
    Cert.ReferenceIdeal.Read.val_main_v16 (F := Ideal) x1 x2 j = weights x1 x2 j := by
  have h0 : (j 0).val < 4096 := (j 0).isLt
  have h1 : (j 1).val < 4096 := (j 1).isLt
  rw [weights_apply, nibbles_eq]
  rw [Cert.ReferenceIdeal.Read.val_main_v16_apply, Cert.ReferenceIdeal.Read.val_main_v13_apply,
    Cert.ReferenceIdeal.Read.val_main_v11_apply, Cert.ReferenceIdeal.Read.val_main_v10_apply,
    Cert.ReferenceIdeal.Read.val_main_v12_apply, Cert.ReferenceIdeal.Read.val_main_cst_apply,
    Cert.ReferenceIdeal.Read.val_main_v15_apply, Cert.ReferenceIdeal.Read.val_main_v14_apply]
  have e1 : Cert.ReferenceIdeal.Read.idx_main_v10 j
      = ix3 (j 0) (⟨(j 1).val / 8, by omega⟩ : Fin 512) (⟨(j 1).val % 8, by omega⟩ : Fin 8) := funext fun a => Fin.ext (by
    match a with
    | ⟨0, _⟩ => show ((j 0).val * 4096 + (j 1).val) / 4096 = (j 0).val; omega
    | ⟨1, _⟩ => show ((j 0).val * 4096 + (j 1).val) / 8 % 512 = (j 1).val / 8; omega
    | ⟨2, _⟩ => show ((j 0).val * 4096 + (j 1).val) % 8 = (j 1).val % 8; omega)
  have e2 : Cert.ReferenceIdeal.Read.idx_main_v14 (Cert.ReferenceIdeal.Read.idx_main_v15 j)
      = ix2 (⟨(j 0).val / 128, by omega⟩ : Fin 32) (j 1) := funext fun a => Fin.ext (by
    match a with
    | ⟨0, _⟩ => show ((j 0).val * 4096 + (j 1).val) / 524288 = (j 0).val / 128; omega
    | ⟨1, _⟩ => show ((j 0).val * 4096 + (j 1).val) % 4096 = (j 1).val; omega)
  rw [e1, e2]
  rfl

end Cert.KernelIdeal.Weights

end
-- ==== Proof.lean ====
/-
  An int4-quantized matrix product.  The weights are stored eight 4-bit values to a 32-bit word with one
  scale per group of 128 rows; both programs unpack them, subtract the zero point 8 and multiply by the
  group's scale, and then form `A · W` for the 4096 × 4096 matrices.  The kernel does the product tile by
  tile on a (4, 2, 8) grid, accumulating the eight K steps of each 1024 × 2048 output tile in a scratch
  block that it zeroes at the first step and copies out at the last; the reference is one `dot_general`.
  On the extended reals the narrowing of both operands to bf16 is the identity and a sum may be regrouped
  freely, so both results are `∑ₖ A[r, k] · W[k, c]` with the same `W` (Proof/Weights.lean): the kernel's by
  the fold of its accumulator over a tile's run (Proof/Tiles.lean over Proof/Pieces.lean, Proof/Payload.lean
  and Proof/Spec.lean), the reference's by reading its `dot_general` at an index.
-/
import proofs.«420315_j3298534884152_3_alg».proof.Defs
import proofs.«420315_j3298534884152_3_alg».proof.Proof.Gen.Kernel
import proofs.«420315_j3298534884152_3_alg».proof.Proof.Gen.Kernel.Skeleton
import proofs.«420315_j3298534884152_3_alg».proof.Proof.Gen.Kernel.Launch
import proofs.«420315_j3298534884152_3_alg».proof.Proof.Gen.Kernel.Points
import proofs.«420315_j3298534884152_3_alg».proof.Proof.Gen.Kernel.Frame
import proofs.«420315_j3298534884152_3_alg».proof.Proof.Gen.KernelIdeal
import proofs.«420315_j3298534884152_3_alg».proof.Proof.Gen.KernelIdeal.Skeleton
import proofs.«420315_j3298534884152_3_alg».proof.Proof.Gen.KernelIdeal.Launch
import proofs.«420315_j3298534884152_3_alg».proof.Proof.Gen.KernelIdeal.Points
import proofs.«420315_j3298534884152_3_alg».proof.Proof.Gen.KernelIdeal.Frame
import proofs.«420315_j3298534884152_3_alg».proof.Proof.Gen.ReferenceIdeal
import proofs.«420315_j3298534884152_3_alg».proof.Proof.Gen.Pre_finite_inputs
import proofs.«420315_j3298534884152_3_alg».proof.Proof.Gen.KernelIdeal.Value
import proofs.«420315_j3298534884152_3_alg».proof.Proof.Gen.ReferenceIdeal.Run
import proofs.«420315_j3298534884152_3_alg».proof.Proof.Gen.ReferenceIdeal.Read
import proofs.«420315_j3298534884152_3_alg».proof.Proof.Tiles
import proofs.«420315_j3298534884152_3_alg».proof.Proof.Weights
import Idealize.ShloMosaic.Adequacy
import Idealize.ShloMosaic.Init

noncomputable section

namespace Cert.Proof

open Idealize.ShloMosaic Idealize.ShloMosaic.TcCoe Idealize.SL.Sem Idealize.ShloMosaic.ValueIdx

/-- The common result: the product of `A` with the dequantized weights of `s` and `q`. -/
abbrev result (a : Cert.Spec.Sq.Idx → EReal) (s : (⟨Cert.KernelIdeal.S32x4096, .f32⟩ : BufTy).Contents (Elt Ideal))
    (q : (⟨Cert.KernelIdeal.S4096x512, .i32⟩ : BufTy).Contents (Elt Ideal)) : Cert.Spec.Sq.Idx → EReal :=
  Cert.Spec.product a (Cert.KernelIdeal.Weights.weights s q)

/-- The kernel's result array after its run. -/
theorem kernel_result (m : (ℓ : Loc Cert.KernelIdeal.nD Cert.KernelIdeal.τ Cert.KernelIdeal.sig) → Buf (Elt Ideal) ℓ)
    (c : Dev Cert.KernelIdeal.nD) :
    (Cert.KernelIdeal.Gen.dats m 0 c).arrAt 2 Cert.KernelIdeal.cfg0.N
      = result (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  rw [Cert.KernelIdeal.Tiles.final m c]
  show Cert.Spec.product (Cert.KernelIdeal.Gen.V m c Cert.KernelIdeal.main_arg0) (Cert.KernelIdeal.Gen.V m c Cert.KernelIdeal.main_v19) = _
  rw [Cert.KernelIdeal.Gen.V_main_arg0, Cert.KernelIdeal.Weights.region_weights]

/-- The reference's `dot_general` of `A` with its own weights is the same function. -/
theorem reference_result (a : (⟨Cert.ReferenceIdeal.S4096x4096, .f32⟩ : BufTy).Contents (Elt Ideal))
    (s : (⟨Cert.ReferenceIdeal.S32x4096, .f32⟩ : BufTy).Contents (Elt Ideal))
    (q : (⟨Cert.ReferenceIdeal.S4096x512, .i32⟩ : BufTy).Contents (Elt Ideal)) :
    Cert.ReferenceIdeal.Read.val_main_v17 (F := Ideal) a s q = result a s q := by
  funext i
  rw [Cert.ReferenceIdeal.Read.val_main_v17_apply]
  unfold result Cert.Spec.product
  refine Finset.sum_congr rfl fun k _ => ?_
  rw [Cert.Spec.at2_of_lt _ _ _ (idx2_lt0 i) k.isLt, Cert.Spec.at2_of_lt _ _ _ k.isLt (idx2_lt1 i),
    Cert.KernelIdeal.Weights.reference_apply]
  have el : Cert.ReferenceIdeal.Read.lidx_main_v17 i k = ix2 (⟨(i 0).val, idx2_lt0 i⟩ : Fin 4096) (⟨k.val, k.isLt⟩ : Fin 4096) :=
    funext fun a => by match a with | ⟨0, _⟩ => rfl | ⟨1, _⟩ => rfl
  have er : Cert.ReferenceIdeal.Read.ridx_main_v17 i k = ix2 (⟨k.val, k.isLt⟩ : Fin 4096) (⟨(i 1).val, idx2_lt1 i⟩ : Fin 4096) :=
    funext fun a => by match a with | ⟨0, _⟩ => rfl | ⟨1, _⟩ => rfl
  rw [el, er]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs, run from memories that agree on `A`, `s` and `q`, end with `result` of them. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c => ⟨(h c).1.trans (kernel_result m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, (hagree c).1, (hagree c).2.1, (hagree c).2.2]
    exact reference_result _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
